-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S128 .f32) (main_arg9 : FVec F S128x64 .f32) (main_arg10 : FVec F S64 .f32) (main_arg11 : FVec F S128x64 .f32) (main_arg12 : FVec F S64 .f32) (main_arg13 : FVec F S64 .f32) (main_arg14 : FVec F S64 .f32) (main_arg15 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x64 .f32) (main_arg10 : FVec F S64 .f32) (main_arg11 : FVec F S128x64 .f32) (main_arg12 : FVec F S64 .f32) (main_arg13 : FVec F S64 .f32) (main_arg14 : FVec F S64 .f32) (main_arg15 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128 .f32) (main_arg6 : FVec F S128 .f32) (main_arg7 : FVec F S128 .f32) (main_arg8 : FVec F S128 .f32) (main_arg9 : FVec F S128x64 .f32) (main_arg10 : FVec F S64 .f32) (main_arg11 : FVec F S128x64 .f32) (main_arg12 : FVec F S64 .f32) (main_arg13 : FVec F S64 .f32) (main_arg14 : FVec F S64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S2000x64 : Shape := ⟨2, ![2000, 64]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S800000x128 : Shape := ⟨2, ![800000, 128]⟩
abbrev S1x64 : Shape := ⟨2, ![1, 64]⟩

abbrev nBuf : Space → Nat
  | .hbm => 48
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S64, .f32⟩
  | .local _ .vmem, ⟨19, _⟩ => ⟨S128x64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S2000x64, .f32⟩
  | .local _ .vmem, ⟨25, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S50000x64.size a
  hwx1_9 : ∀ i : grid1.Coords, EltTy.bits .f32 = 32 ∨ (Rect.block (s := S50000x64) S2000x64.size (cc1_transform_9 i) (hinb1_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S2000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S50000 : Shape := ⟨1, ![50000]⟩
abbrev S50000x1 : Shape := ⟨2, ![50000, 1]⟩
abbrev S800000x128 : Shape := ⟨2, ![800000, 128]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_cst : Ref sig .tc := ⟨.hbm, 65, rfl⟩
abbrev main_call1_v0 : Ref sig .tc := ⟨.hbm, 66, rfl⟩
abbrev main_v40 : Ref sig .tc := ⟨.hbm, 67, rfl⟩
abbrev main_c_3 : Ref sig .tc := ⟨.hbm, 68, rfl⟩
abbrev main_v41 : Ref sig .tc := ⟨.hbm, 69, rfl⟩
abbrev main_v42 : Ref sig .tc := ⟨.hbm, 70, rfl⟩
abbrev main_c_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v57 : Ref sig .tc := ⟨.hbm, 91, rfl⟩
abbrev main_cst_6 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_7 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S_S64 : S_.BroadcastsInDim S64 (![] : Fin 0 → Fin S64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  One GraphSAGE layer with L2 row normalisation and an evaluation-mode batch norm, as a function on the
  extended reals, entry by entry.  For aggregated features `agg` and node features `x` (both `[n, di]`),
  weights `Wl`, `Wr` (`[di, dh]`), a bias `b` and the batch-norm vectors `g`, `be`, `rm`, `rv` (`[dh]`):

    o (r, j)   = (∑ k, agg (r, k) · Wl (k, j) + ∑ k, x (r, k) · Wr (k, j)) + b j
    nrm r      = max (sqrt (∑ j, o (r, j)²)) ε₁
    out (r, j) = (((o (r, j) / nrm r) − rm j) · rsqrt (rv j + ε₂)) · g j + be j,   followed by max (·, 0) when `relu`.

  Both programs compute this function; they differ only in how the three summands of `o` are grouped and in the
  order of the three factors of the batch norm, which the commutative monoid laws of the extended reals absorb.
-/
import Idealize.ShloMosaic.Lib.ValueIdx
import Idealize.ShloMosaic.PureOps.Ideal

noncomputable section

namespace Cert.Sage

open Idealize.ShloMosaic Idealize.ShloMosaic.ValueIdx

variable {n di dh : ℕ}

/-- The two linear maps and the bias at row `r`, column `j`. -/
def lin (agg x : FVec Ideal ⟨2, ![n, di]⟩ .f32) (Wl : FVec Ideal ⟨2, ![di, dh]⟩ .f32) (b : FVec Ideal ⟨1, ![dh]⟩ .f32)
    (Wr : FVec Ideal ⟨2, ![di, dh]⟩ .f32) (r : Fin n) (j : Fin dh) : EReal :=
  (∑ k : Fin di, agg (ix2 r k) * Wl (ix2 k j) + ∑ k : Fin di, x (ix2 r k) * Wr (ix2 k j)) + b (ix1 j)

/-- The clamped Euclidean norm of a row. -/
def rowNorm (o : Fin dh → EReal) : EReal :=
  max (Ideal.sqrt (∑ j : Fin dh, o j * o j)) (Ideal.ofBits .f32 0x2B8CBCCC#32)

/-- The evaluation-mode batch norm of one entry. -/
def bnAt (v g be rm rv : EReal) : EReal :=
  ((v - rm) * Ideal.rsqrt (rv + Ideal.ofBits .f32 0x3727C5AC#32)) * g + be

/-- The layer at row `r`, column `j`. -/
def layerAt (relu : Bool) (agg x : FVec Ideal ⟨2, ![n, di]⟩ .f32) (Wl : FVec Ideal ⟨2, ![di, dh]⟩ .f32)
    (b : FVec Ideal ⟨1, ![dh]⟩ .f32) (Wr : FVec Ideal ⟨2, ![di, dh]⟩ .f32) (g be rm rv : FVec Ideal ⟨1, ![dh]⟩ .f32)
    (r : Fin n) (j : Fin dh) : EReal :=
  let v := bnAt (Ideal.div (lin agg x Wl b Wr r j) (rowNorm (lin agg x Wl b Wr r))) (g (ix1 j)) (be (ix1 j)) (rm (ix1 j)) (rv (ix1 j))
  if relu then max v (Ideal.ofBits .f32 0x00000000#32) else v

/-- The layer as a whole `[n, dh]` array. -/
def layer (relu : Bool) (agg x : FVec Ideal ⟨2, ![n, di]⟩ .f32) (Wl : FVec Ideal ⟨2, ![di, dh]⟩ .f32)
    (b : FVec Ideal ⟨1, ![dh]⟩ .f32) (Wr : FVec Ideal ⟨2, ![di, dh]⟩ .f32) (g be rm rv : FVec Ideal ⟨1, ![dh]⟩ .f32) :
    FVec Ideal ⟨2, ![n, dh]⟩ .f32 :=
  fun i => layerAt relu agg x Wl b Wr g be rm rv ⟨(i 0).val, idx2_lt0 i⟩ ⟨(i 1).val, idx2_lt1 i⟩

theorem layer_ix2 (relu : Bool) (agg x : FVec Ideal ⟨2, ![n, di]⟩ .f32) (Wl : FVec Ideal ⟨2, ![di, dh]⟩ .f32)
    (b : FVec Ideal ⟨1, ![dh]⟩ .f32) (Wr : FVec Ideal ⟨2, ![di, dh]⟩ .f32) (g be rm rv : FVec Ideal ⟨1, ![dh]⟩ .f32)
    (r : Fin n) (j : Fin dh) :
    layer relu agg x Wl b Wr g be rm rv (ix2 r j) = layerAt relu agg x Wl b Wr g be rm rv r j := rfl

/-- The reference groups the bias with the first product and multiplies by the scale first: the same entry. -/
theorem bn_comm (v g be rm s : EReal) : (g * (v - rm)) * s + be = ((v - rm) * s) * g + be := by
  rw [mul_comm g (v - rm), mul_right_comm]

theorem lin_comm (A X b : EReal) : (A + b) + X = (A + X) + b := add_right_comm A b X

end Cert.Sage

end
-- ==== Proof.SpecRows.lean ====
/-
  An entry of the layer depends only on ONE row of the aggregated and of the node features: two pairs of arrays
  that agree on a row (a block of rows read inside the whole array) give the same entries on it.
-/
import proofs.«151400_j24515673325797_1_alg».proof.Proof.Spec

noncomputable section

namespace Cert.Sage

open Idealize.ShloMosaic Idealize.ShloMosaic.ValueIdx

variable {n n' di dh : ℕ}

theorem lin_congr (agg x : FVec Ideal ⟨2, ![n, di]⟩ .f32) (agg' x' : FVec Ideal ⟨2, ![n', di]⟩ .f32)
    (Wl : FVec Ideal ⟨2, ![di, dh]⟩ .f32) (b : FVec Ideal ⟨1, ![dh]⟩ .f32) (Wr : FVec Ideal ⟨2, ![di, dh]⟩ .f32)
    (r : Fin n) (r' : Fin n') (hagg : ∀ k : Fin di, agg (ix2 r k) = agg' (ix2 r' k)) (hx : ∀ k : Fin di, x (ix2 r k) = x' (ix2 r' k)) :
    lin agg x Wl b Wr r = lin agg' x' Wl b Wr r' := by
  funext j
  unfold lin
  simp only [hagg, hx]

/-- The entry at row `r` of one pair of arrays is the entry at row `r'` of another pair that holds the same two rows. -/
theorem layerAt_congr (relu : Bool) (agg x : FVec Ideal ⟨2, ![n, di]⟩ .f32) (agg' x' : FVec Ideal ⟨2, ![n', di]⟩ .f32)
    (Wl : FVec Ideal ⟨2, ![di, dh]⟩ .f32) (b : FVec Ideal ⟨1, ![dh]⟩ .f32) (Wr : FVec Ideal ⟨2, ![di, dh]⟩ .f32)
    (g be rm rv : FVec Ideal ⟨1, ![dh]⟩ .f32) (r : Fin n) (r' : Fin n') (j : Fin dh)
    (hagg : ∀ k : Fin di, agg (ix2 r k) = agg' (ix2 r' k)) (hx : ∀ k : Fin di, x (ix2 r k) = x' (ix2 r' k)) :
    layerAt relu agg x Wl b Wr g be rm rv r j = layerAt relu agg' x' Wl b Wr g be rm rv r' j := by
  unfold layerAt
  rw [lin_congr agg x agg' x' Wl b Wr r r' hagg hx]

end Cert.Sage

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.LibRowVec.lean ====
/-
  A general lemma file: small layout forms of a kernel body that works row by row on a rank-2 block.
  * a `[b]` vector laid as a `[1, b]` row (cast once, or twice with the second cast the identity) and broadcast over `a` rows,
    read at `(p, q)`: the vector at `q`;
  * the row sums of an `[a, d]` array kept as a column `[a, 1]`, read at `(p, 0)`: the sum of row `p`, at Ideal;
  * the element-wise square root and reciprocal square root read at an index, at Ideal.
-/
import proofs.«151400_j24515673325797_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.RowVec

open Idealize.ShloMosaic Idealize.ShloMosaic.ValueIdx

/-- A vector laid as a row and broadcast over the rows reads, at `(p, q)`, the vector at `q`. -/
theorem rowVec_apply {α : Type} {a b : ℕ} (v : (⟨1, ![b]⟩ : Shape).Idx → α)
    (h1 : (⟨1, ![b]⟩ : Shape).ShapeCasts ⟨2, ![1, b]⟩) (h2 : (⟨2, ![1, b]⟩ : Shape).ShapeCasts ⟨2, ![1, b]⟩)
    (h3 : (⟨2, ![1, b]⟩ : Shape).Broadcasts ⟨2, ![a, b]⟩) (p : Fin a) (q : Fin b) :
    broadcastTo ⟨2, ![a, b]⟩ (shapeCast ⟨2, ![1, b]⟩ (shapeCast ⟨2, ![1, b]⟩ v h1) h2) h3 (ix2 p q) = v (ix1 q) := by
  rw [broadcastTo_1b_ab_apply, shapeCast_self, shapeCast_a_1a_apply]

/-- The same with the vector cast to a row once. -/
theorem rowVec1_apply {α : Type} {a b : ℕ} (v : (⟨1, ![b]⟩ : Shape).Idx → α)
    (h1 : (⟨1, ![b]⟩ : Shape).ShapeCasts ⟨2, ![1, b]⟩) (h3 : (⟨2, ![1, b]⟩ : Shape).Broadcasts ⟨2, ![a, b]⟩) (p : Fin a) (q : Fin b) :
    broadcastTo ⟨2, ![a, b]⟩ (shapeCast ⟨2, ![1, b]⟩ v h1) h3 (ix2 p q) = v (ix1 q) := by
  rw [broadcastTo_1b_ab_apply, shapeCast_a_1a_apply]

/-- The row sums of an `[a, d]` array kept as a column: at `(p, 0)` the sum of row `p`. -/
theorem rowSumColumn_apply {φ : FTy} {a d : ℕ} (x : FVec Ideal ⟨2, ![a, d]⟩ φ) (acc : BitVec φ.bits)
    (hr : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ x acc hr hφ hacc) hc (ix2 p (0 : Fin 1))
      = ∑ k : Fin d, x (ix2 p k) := by
  rw [Cert.ColumnForms.shapeCast_a_a1_apply]
  refine (Ideal.multiReduction_add_single x acc hr hφ hacc (ix1 p)).trans ?_
  exact Finset.sum_congr rfl fun k _ => congrArg x (Cert.ColumnForms.lift_axis1 hr p k)

/-- The same for a 32-bit float sum from the zero word, with the two side facts spelt as a printed kernel body carries
    them (a disjunction of format equations; an equation between two zero words), so that a rewrite finds it. -/
theorem rowSumColumn_f32_apply {a d : ℕ} (x : FVec Ideal ⟨2, ![a, d]⟩ .f32)
    (hr : (⟨2, ![a, d]⟩ : Shape).Reduces [1] ⟨1, ![a]⟩) (hφ : FTy.f32 = FTy.f32 ∨ FTy.f32 = FTy.bf16)
    (hacc : (0x00000000#32 : BitVec 32) = 0x00000000#32)
    (hc : (⟨1, ![a]⟩ : Shape).ShapeCasts ⟨2, ![a, 1]⟩) (p : Fin a) :
    shapeCast ⟨2, ![a, 1]⟩ (multiReduction .add [1] ⟨1, ![a]⟩ x 0x00000000#32 hr hφ hacc) hc (ix2 p (0 : Fin 1))
      = ∑ k : Fin d, x (ix2 p k) :=
  rowSumColumn_apply x _ hr hφ hacc hc p

variable {s : Shape} {φ : FTy}

theorem sqrt_apply (a : FVec Ideal s φ) (i : s.Idx) : sqrt a i = Ideal.sqrt (a i) := rfl

theorem rsqrt_apply (a : FVec Ideal s φ) (i : s.Idx) : rsqrt a i = Ideal.rsqrt (a i) := rfl

end Cert.RowVec

end
-- ==== Proof.Region0.lean ====
/-
  The first kernel region: what one grid point leaves in its output block, entry by entry, and the whole result array.
-/
import proofs.«151400_j24515673325797_1_alg».proof.Proof.Gen.KernelIdeal.Frame
import proofs.«151400_j24515673325797_1_alg».proof.Proof.SpecRows
import proofs.«151400_j24515673325797_1_alg».proof.Proof.LibMatmulPlain
import proofs.«151400_j24515673325797_1_alg».proof.Proof.LibColumnForms
import proofs.«151400_j24515673325797_1_alg».proof.Proof.LibRowVec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The output block after the body is the body's arithmetic of the whole input blocks. -/
theorem out_eq (x0 x1 : Vec Ideal S2000x64 .f32) (x2 : Vec Ideal S64x128 .f32) (x3 : Vec Ideal S128 .f32)
    (x4 : Vec Ideal S64x128 .f32) (x5 x6 x7 x8 : Vec Ideal S128 .f32) :
    out0_9 x0 x1 x2 x3 x4 x5 x6 x7 x8 = k0_pay1 x6 (k0_pay2 x0 x1 x2 x4 x3 x7 x8) (k0_pay3 x5) := by
  unfold out0_9
  rw [View.canon_unit_zero hz2]
  simp only [View.ld_unit_zero (S := S2000x64) hz2, View.ld_unit_zero (S := S64x128) hz2, View.ld_unit_zero (S := S128) hz1]

theorem pay_apply (x0 x1 : Vec Ideal S2000x64 .f32) (x2 : Vec Ideal S64x128 .f32) (x3 : Vec Ideal S128 .f32)
    (x4 : Vec Ideal S64x128 .f32) (x5 x6 x7 x8 : Vec Ideal S128 .f32) (p : Fin 2000) (q : Fin 128) :
    k0_pay1 x6 (k0_pay2 x0 x1 x2 x4 x3 x7 x8) (k0_pay3 x5) (ix2 p q)
      = Cert.Sage.layerAt true x0 x1 x2 x3 x4 x5 x6 x7 x8 p q := by
  unfold k0_pay1 k0_pay2 k0_pay3
  dsimp only
  simp only [maximumf_apply, addf_apply, mulf_apply, subf_apply, divf_apply, broadcast_apply]
  rw [show dot_S2000x64_S64x128_S2000x128_1_0_0_1_n_n = DotDims.plain 2000 64 128 from rfl]
  simp only [Cert.RowVec.rowVec_apply, Cert.RowVec.rowVec1_apply, Cert.ColumnForms.broadcastTo_a1_ab_apply, maximumf_apply,
    Cert.RowVec.sqrt_apply, Cert.RowVec.rsqrt_apply, MatmulPlain.matmul_zero_apply, truncf_apply, shapeCast_self,
    mulf_apply, addf_apply, broadcast_apply]
  rw [Cert.RowVec.rowSumColumn_f32_apply]
  simp only [Cert.RowVec.rowVec_apply, Cert.RowVec.rowVec1_apply, MatmulPlain.matmul_zero_apply, truncf_apply,
    mulf_apply, addf_apply]
  unfold Cert.Sage.layerAt Cert.Sage.bnAt Cert.Sage.rowNorm Cert.Sage.lin
  rfl

/-- An entry of the output block is the layer's entry in the whole array, at the place the block lies: the block's
    row `p` is row `T · 2000 + p` of the array, and the two row-tiled inputs hold those rows. -/
theorem block_entry (agg x : FVec Ideal S50000x64 .f32) (x0 x1 : Vec Ideal S2000x64 .f32) (x2 : Vec Ideal S64x128 .f32)
    (x3 : Vec Ideal S128 .f32) (x4 : Vec Ideal S64x128 .f32) (x5 x6 x7 x8 : Vec Ideal S128 .f32)
    (e : S2000x128.Idx → S50000x128.Idx) (T : ℕ) (hT : T ≤ 24)
    (he0 : ∀ j, (e j 0).val = T * 2000 + (j 0).val) (he1 : ∀ j, (e j 1).val = (j 1).val)
    (h0 : ∀ (p : Fin 2000) (k : Fin 64), x0 (ix2 p k) = agg (ix2 (⟨T * 2000 + p.val, by omega⟩ : Fin 50000) k))
    (h1 : ∀ (p : Fin 2000) (k : Fin 64), x1 (ix2 p k) = x (ix2 (⟨T * 2000 + p.val, by omega⟩ : Fin 50000) k))
    (j : S2000x128.Idx) :
    k0_pay1 x6 (k0_pay2 x0 x1 x2 x4 x3 x7 x8) (k0_pay3 x5) j
      = Cert.Sage.layer true agg x x2 x3 x4 x5 x6 x7 x8 (e j) := by
  obtain ⟨p, q, rfl⟩ : ∃ (p : Fin 2000) (q : Fin 128), j = ix2 p q := ⟨j 0, j 1, eq_ix2 j⟩
  rw [pay_apply]
  have hp : p.val < 2000 := p.isLt
  have he : e (ix2 p q) = ix2 (⟨T * 2000 + p.val, by omega⟩ : Fin 50000) q := by
    funext a; apply Fin.ext
    match a with
    | ⟨0, _⟩ => exact he0 (ix2 p q)
    | ⟨1, _⟩ => exact he1 (ix2 p q)
  rw [he, Cert.Sage.layer_ix2]
  exact Cert.Sage.layerAt_congr true x0 x1 agg x x2 x3 x4 x5 x6 x7 x8 p _ q (h0 p) (h1 p)

variable (V : (c : Dev nD) → (b : Ref sig .tc) → Buf (Elt Ideal) ((c : Thread nD τ).loc b))

/-- The printed index maps over the grid: the two row-tiled inputs move with the output's block of rows; every other
    input is fetched whole at every point. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 1) = 0 ∧ win0_8.index t (0 : Fin 1) = 0
    ∧ win0_9.index t (1 : Fin 2) = 0 ∧ win0_9.index t (0 : Fin 2) ≤ 24 :=
  (by decide +kernel : ∀ t : Fin grid0.N, _)

/-- Every block of rows of the result is some point's. -/
theorem idx_onto : ∀ q0 : Fin 25, ∃ t : Fin cfg0.N, win0_9.index t = ![q0.val, 0] :=
  (by decide +kernel : ∀ q0 : Fin 25, ∃ t : Fin grid0.N, win0_9.index t = ![q0.val, 0])

/-- A rank-2 input fetched whole is the array itself. -/
theorem whole2 (c : Dev nD) (t : Fin cfg0.N) : iblk0 V c 2 t = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem whole4 (c : Dev nD) (t : Fin cfg0.N) : iblk0 V c 4 t = V c main_arg4 := by
  obtain ⟨-, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- A rank-1 input fetched whole is the array itself. -/
theorem whole3 (c : Dev nD) (t : Fin cfg0.N) : iblk0 V c 3 t = V c main_arg3 := by
  obtain ⟨-, -, -, -, -, -, e0, -⟩ := idx_facts t
  funext y
  show V c main_arg3 (((cfg0.win 3).blk t).view.emb y) = V c main_arg3 y
  refine congrArg _ (funext fun a => Fin.ext ?_)
  match a with
  | ⟨0, _⟩ => show win0_3.index t (0 : Fin 1) * 128 + 1 * (y 0).val = (y 0).val; omega

theorem whole5 (c : Dev nD) (t : Fin cfg0.N) : iblk0 V c 5 t = V c main_arg5 := by
  obtain ⟨-, -, -, -, -, -, -, -, -, e0, -⟩ := idx_facts t
  funext y
  show V c main_arg5 (((cfg0.win 5).blk t).view.emb y) = V c main_arg5 y
  refine congrArg _ (funext fun a => Fin.ext ?_)
  match a with
  | ⟨0, _⟩ => show win0_5.index t (0 : Fin 1) * 128 + 1 * (y 0).val = (y 0).val; omega

theorem whole6 (c : Dev nD) (t : Fin cfg0.N) : iblk0 V c 6 t = V c main_arg6 := by
  obtain ⟨-, -, -, -, -, -, -, -, -, -, e0, -⟩ := idx_facts t
  funext y
  show V c main_arg6 (((cfg0.win 6).blk t).view.emb y) = V c main_arg6 y
  refine congrArg _ (funext fun a => Fin.ext ?_)
  match a with
  | ⟨0, _⟩ => show win0_6.index t (0 : Fin 1) * 128 + 1 * (y 0).val = (y 0).val; omega

theorem whole7 (c : Dev nD) (t : Fin cfg0.N) : iblk0 V c 7 t = V c main_arg7 := by
  obtain ⟨-, -, -, -, -, -, -, -, -, -, -, e0, -⟩ := idx_facts t
  funext y
  show V c main_arg7 (((cfg0.win 7).blk t).view.emb y) = V c main_arg7 y
  refine congrArg _ (funext fun a => Fin.ext ?_)
  match a with
  | ⟨0, _⟩ => show win0_7.index t (0 : Fin 1) * 128 + 1 * (y 0).val = (y 0).val; omega

theorem whole8 (c : Dev nD) (t : Fin cfg0.N) : iblk0 V c 8 t = V c main_arg8 := by
  obtain ⟨-, -, -, -, -, -, -, -, -, -, -, -, e0, -⟩ := idx_facts t
  funext y
  show V c main_arg8 (((cfg0.win 8).blk t).view.emb y) = V c main_arg8 y
  refine congrArg _ (funext fun a => Fin.ext ?_)
  match a with
  | ⟨0, _⟩ => show win0_8.index t (0 : Fin 1) * 128 + 1 * (y 0).val = (y 0).val; omega

/-- The result array of the region as the layer function of what the region finds in its operand arrays. -/
abbrev G (c : Dev nD) : S50000x128.Idx → Elt Ideal .f32 :=
  Cert.Sage.layer true (V c main_v13) (V c main_arg0) (V c main_arg2) (V c main_arg3) (V c main_arg4) (V c main_arg5)
    (V c main_arg6) (V c main_arg7) (V c main_arg8)

/-- What point `t` writes back is block `t` of the layer function. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9, out_eq, whole2, whole3, whole4, whole5, whole6, whole7, whole8]
  obtain ⟨a0, a0', a1, a1', -, -, -, -, -, -, -, -, -, b1, bT⟩ := idx_facts t
  funext j
  refine block_entry (V c main_v13) (V c main_arg0) (iblk0 V c 0 t) (iblk0 V c 1 t) (V c main_arg2) (V c main_arg3)
    (V c main_arg4) (V c main_arg5) (V c main_arg6) (V c main_arg7) (V c main_arg8) ((cfg0.win 9).blk t).view.emb
    (win0_9.index t (0 : Fin 2)) bT ?_ ?_ ?_ ?_ j
  · intro j; show win0_9.index t (0 : Fin 2) * 2000 + 1 * (j 0).val = _; omega
  · intro j; show win0_9.index t (1 : Fin 2) * 128 + 1 * (j 1).val = _; omega
  · intro p k
    show V c main_v13 (((cfg0.win 0).blk t).view.emb (ix2 p k)) = _
    refine congrArg _ (funext fun a => Fin.ext ?_)
    match a with
    | ⟨0, _⟩ => show win0_0.index t (0 : Fin 2) * 2000 + 1 * p.val = win0_9.index t (0 : Fin 2) * 2000 + p.val; omega
    | ⟨1, _⟩ => show win0_0.index t (1 : Fin 2) * 64 + 1 * k.val = k.val; omega
  · intro p k
    show V c main_arg0 (((cfg0.win 1).blk t).view.emb (ix2 p k)) = _
    refine congrArg _ (funext fun a => Fin.ext ?_)
    match a with
    | ⟨0, _⟩ => show win0_1.index t (0 : Fin 2) * 2000 + 1 * p.val = win0_9.index t (0 : Fin 2) * 2000 + p.val; omega
    | ⟨1, _⟩ => show win0_1.index t (1 : Fin 2) * 64 + 1 * k.val = k.val; omega

/-- An index of the result array is in point `t`'s block iff each coordinate is in the block's range on its axis. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v14).slice (win0_9.rect t)).set ↔ _
  rw [View.set_slice_whole, Rect.mem_set_unit]
  exact Iff.rfl

/-- The blocks of rows tile the result array: row `r` lies in the block of point `r / 2000`. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The region's result array after the run is the layer function of its operand arrays as the region finds them. -/
theorem arr (c : Dev nD) : (dat0 (F := Ideal) V c).arrAt 9 cfg0.N = G V c :=
  (dat0 V c).arrAt_eq_of_cover 9 (G V c) (fun t _ => flushed_eq V c t) cover

end Cert.KernelIdeal.Region0

end
-- ==== Proof.Region1.lean ====
/-
  The second kernel region: what one grid point leaves in its output block, entry by entry, and the whole result array.
-/
import proofs.«151400_j24515673325797_1_alg».proof.Proof.Gen.KernelIdeal.Frame
import proofs.«151400_j24515673325797_1_alg».proof.Proof.SpecRows
import proofs.«151400_j24515673325797_1_alg».proof.Proof.LibMatmulPlain
import proofs.«151400_j24515673325797_1_alg».proof.Proof.LibColumnForms
import proofs.«151400_j24515673325797_1_alg».proof.Proof.LibRowVec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The output block after the body is the body's arithmetic of the whole input blocks. -/
theorem out_eq (x0 x1 : Vec Ideal S2000x128 .f32) (x2 : Vec Ideal S128x64 .f32) (x3 : Vec Ideal S64 .f32)
    (x4 : Vec Ideal S128x64 .f32) (x5 x6 x7 x8 : Vec Ideal S64 .f32) :
    out1_9 x0 x1 x2 x3 x4 x5 x6 x7 x8 = k1_pay1 x5 x6 (k1_pay2 x0 x1 x2 x4 x3 x7 x8) := by
  unfold out1_9
  rw [View.canon_unit_zero hz2]
  simp only [View.ld_unit_zero (S := S2000x128) hz2, View.ld_unit_zero (S := S128x64) hz2, View.ld_unit_zero (S := S64) hz1]

theorem pay_apply (x0 x1 : Vec Ideal S2000x128 .f32) (x2 : Vec Ideal S128x64 .f32) (x3 : Vec Ideal S64 .f32)
    (x4 : Vec Ideal S128x64 .f32) (x5 x6 x7 x8 : Vec Ideal S64 .f32) (p : Fin 2000) (q : Fin 64) :
    k1_pay1 x5 x6 (k1_pay2 x0 x1 x2 x4 x3 x7 x8) (ix2 p q)
      = Cert.Sage.layerAt false x0 x1 x2 x3 x4 x5 x6 x7 x8 p q := by
  unfold k1_pay1 k1_pay2
  dsimp only
  simp only [maximumf_apply, addf_apply, mulf_apply, subf_apply, divf_apply, broadcast_apply]
  rw [show dot_S2000x128_S128x64_S2000x64_1_0_0_1_n_n = DotDims.plain 2000 128 64 from rfl]
  simp only [Cert.RowVec.rowVec_apply, Cert.RowVec.rowVec1_apply, Cert.ColumnForms.broadcastTo_a1_ab_apply, maximumf_apply,
    Cert.RowVec.sqrt_apply, Cert.RowVec.rsqrt_apply, MatmulPlain.matmul_zero_apply, truncf_apply, shapeCast_self,
    mulf_apply, addf_apply, broadcast_apply]
  rw [Cert.RowVec.rowSumColumn_f32_apply]
  simp only [Cert.RowVec.rowVec_apply, Cert.RowVec.rowVec1_apply, MatmulPlain.matmul_zero_apply, truncf_apply,
    mulf_apply, addf_apply]
  unfold Cert.Sage.layerAt Cert.Sage.bnAt Cert.Sage.rowNorm Cert.Sage.lin
  rfl

/-- An entry of the output block is the layer's entry in the whole array, at the place the block lies: the block's
    row `p` is row `T · 2000 + p` of the array, and the two row-tiled inputs hold those rows. -/
theorem block_entry (agg x : FVec Ideal S50000x128 .f32) (x0 x1 : Vec Ideal S2000x128 .f32) (x2 : Vec Ideal S128x64 .f32)
    (x3 : Vec Ideal S64 .f32) (x4 : Vec Ideal S128x64 .f32) (x5 x6 x7 x8 : Vec Ideal S64 .f32)
    (e : S2000x64.Idx → S50000x64.Idx) (T : ℕ) (hT : T ≤ 24)
    (he0 : ∀ j, (e j 0).val = T * 2000 + (j 0).val) (he1 : ∀ j, (e j 1).val = (j 1).val)
    (h0 : ∀ (p : Fin 2000) (k : Fin 128), x0 (ix2 p k) = agg (ix2 (⟨T * 2000 + p.val, by omega⟩ : Fin 50000) k))
    (h1 : ∀ (p : Fin 2000) (k : Fin 128), x1 (ix2 p k) = x (ix2 (⟨T * 2000 + p.val, by omega⟩ : Fin 50000) k))
    (j : S2000x64.Idx) :
    k1_pay1 x5 x6 (k1_pay2 x0 x1 x2 x4 x3 x7 x8) j
      = Cert.Sage.layer false agg x x2 x3 x4 x5 x6 x7 x8 (e j) := by
  obtain ⟨p, q, rfl⟩ : ∃ (p : Fin 2000) (q : Fin 64), j = ix2 p q := ⟨j 0, j 1, eq_ix2 j⟩
  rw [pay_apply]
  have hp : p.val < 2000 := p.isLt
  have he : e (ix2 p q) = ix2 (⟨T * 2000 + p.val, by omega⟩ : Fin 50000) q := by
    funext a; apply Fin.ext
    match a with
    | ⟨0, _⟩ => exact he0 (ix2 p q)
    | ⟨1, _⟩ => exact he1 (ix2 p q)
  rw [he, Cert.Sage.layer_ix2]
  exact Cert.Sage.layerAt_congr false x0 x1 agg x x2 x3 x4 x5 x6 x7 x8 p _ q (h0 p) (h1 p)

variable (V : (c : Dev nD) → (b : Ref sig .tc) → Buf (Elt Ideal) ((c : Thread nD τ).loc b))

/-- The printed index maps over the grid: the two row-tiled inputs move with the output's block of rows; every other
    input is fetched whole at every point. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 ∧ win1_6.index t (0 : Fin 1) = 0
    ∧ win1_7.index t (0 : Fin 1) = 0 ∧ win1_8.index t (0 : Fin 1) = 0
    ∧ win1_9.index t (1 : Fin 2) = 0 ∧ win1_9.index t (0 : Fin 2) ≤ 24 :=
  (by decide +kernel : ∀ t : Fin grid1.N, _)

/-- Every block of rows of the result is some point's. -/
theorem idx_onto : ∀ q0 : Fin 25, ∃ t : Fin cfg1.N, win1_9.index t = ![q0.val, 0] :=
  (by decide +kernel : ∀ q0 : Fin 25, ∃ t : Fin grid1.N, win1_9.index t = ![q0.val, 0])

/-- A rank-2 input fetched whole is the array itself. -/
theorem whole2 (c : Dev nD) (t : Fin cfg1.N) : iblk1 V c 2 t = V c main_arg9 := by
  obtain ⟨-, -, -, -, e0, e1, -⟩ := idx_facts t
  funext y
  show V c main_arg9 (((cfg1.win 2).blk t).view.emb y) = V c main_arg9 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

theorem whole4 (c : Dev nD) (t : Fin cfg1.N) : iblk1 V c 4 t = V c main_arg11 := by
  obtain ⟨-, -, -, -, -, -, -, e0, e1, -⟩ := idx_facts t
  funext y
  show V c main_arg11 (((cfg1.win 4).blk t).view.emb y) = V c main_arg11 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- A rank-1 input fetched whole is the array itself. -/
theorem whole3 (c : Dev nD) (t : Fin cfg1.N) : iblk1 V c 3 t = V c main_arg10 := by
  obtain ⟨-, -, -, -, -, -, e0, -⟩ := idx_facts t
  funext y
  show V c main_arg10 (((cfg1.win 3).blk t).view.emb y) = V c main_arg10 y
  refine congrArg _ (funext fun a => Fin.ext ?_)
  match a with
  | ⟨0, _⟩ => show win1_3.index t (0 : Fin 1) * 64 + 1 * (y 0).val = (y 0).val; omega

theorem whole5 (c : Dev nD) (t : Fin cfg1.N) : iblk1 V c 5 t = V c main_arg12 := by
  obtain ⟨-, -, -, -, -, -, -, -, -, e0, -⟩ := idx_facts t
  funext y
  show V c main_arg12 (((cfg1.win 5).blk t).view.emb y) = V c main_arg12 y
  refine congrArg _ (funext fun a => Fin.ext ?_)
  match a with
  | ⟨0, _⟩ => show win1_5.index t (0 : Fin 1) * 64 + 1 * (y 0).val = (y 0).val; omega

theorem whole6 (c : Dev nD) (t : Fin cfg1.N) : iblk1 V c 6 t = V c main_arg13 := by
  obtain ⟨-, -, -, -, -, -, -, -, -, -, e0, -⟩ := idx_facts t
  funext y
  show V c main_arg13 (((cfg1.win 6).blk t).view.emb y) = V c main_arg13 y
  refine congrArg _ (funext fun a => Fin.ext ?_)
  match a with
  | ⟨0, _⟩ => show win1_6.index t (0 : Fin 1) * 64 + 1 * (y 0).val = (y 0).val; omega

theorem whole7 (c : Dev nD) (t : Fin cfg1.N) : iblk1 V c 7 t = V c main_arg14 := by
  obtain ⟨-, -, -, -, -, -, -, -, -, -, -, e0, -⟩ := idx_facts t
  funext y
  show V c main_arg14 (((cfg1.win 7).blk t).view.emb y) = V c main_arg14 y
  refine congrArg _ (funext fun a => Fin.ext ?_)
  match a with
  | ⟨0, _⟩ => show win1_7.index t (0 : Fin 1) * 64 + 1 * (y 0).val = (y 0).val; omega

theorem whole8 (c : Dev nD) (t : Fin cfg1.N) : iblk1 V c 8 t = V c main_arg15 := by
  obtain ⟨-, -, -, -, -, -, -, -, -, -, -, -, e0, -⟩ := idx_facts t
  funext y
  show V c main_arg15 (((cfg1.win 8).blk t).view.emb y) = V c main_arg15 y
  refine congrArg _ (funext fun a => Fin.ext ?_)
  match a with
  | ⟨0, _⟩ => show win1_8.index t (0 : Fin 1) * 64 + 1 * (y 0).val = (y 0).val; omega

/-- The result array of the region as the layer function of what the region finds in its operand arrays. -/
abbrev G (c : Dev nD) : S50000x64.Idx → Elt Ideal .f32 :=
  Cert.Sage.layer false (V c main_v24) (V c main_v14) (V c main_arg9) (V c main_arg10) (V c main_arg11) (V c main_arg12)
    (V c main_arg13) (V c main_arg14) (V c main_arg15)

/-- What point `t` writes back is block `t` of the layer function. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 V c).after 9 t) = _
  rw [after1_9, out_eq, whole2, whole3, whole4, whole5, whole6, whole7, whole8]
  obtain ⟨a0, a0', a1, a1', -, -, -, -, -, -, -, -, -, b1, bT⟩ := idx_facts t
  funext j
  refine block_entry (V c main_v24) (V c main_v14) (iblk1 V c 0 t) (iblk1 V c 1 t) (V c main_arg9) (V c main_arg10)
    (V c main_arg11) (V c main_arg12) (V c main_arg13) (V c main_arg14) (V c main_arg15) ((cfg1.win 9).blk t).view.emb
    (win1_9.index t (0 : Fin 2)) bT ?_ ?_ ?_ ?_ j
  · intro j; show win1_9.index t (0 : Fin 2) * 2000 + 1 * (j 0).val = _; omega
  · intro j; show win1_9.index t (1 : Fin 2) * 64 + 1 * (j 1).val = _; omega
  · intro p k
    show V c main_v24 (((cfg1.win 0).blk t).view.emb (ix2 p k)) = _
    refine congrArg _ (funext fun a => Fin.ext ?_)
    match a with
    | ⟨0, _⟩ => show win1_0.index t (0 : Fin 2) * 2000 + 1 * p.val = win1_9.index t (0 : Fin 2) * 2000 + p.val; omega
    | ⟨1, _⟩ => show win1_0.index t (1 : Fin 2) * 128 + 1 * k.val = k.val; omega
  · intro p k
    show V c main_v14 (((cfg1.win 1).blk t).view.emb (ix2 p k)) = _
    refine congrArg _ (funext fun a => Fin.ext ?_)
    match a with
    | ⟨0, _⟩ => show win1_1.index t (0 : Fin 2) * 2000 + 1 * p.val = win1_9.index t (0 : Fin 2) * 2000 + p.val; omega
    | ⟨1, _⟩ => show win1_1.index t (1 : Fin 2) * 128 + 1 * k.val = k.val; omega

/-- An index of the result array is in point `t`'s block iff each coordinate is in the block's range on its axis. -/
theorem mem_blk (t : Fin cfg1.N) (i : S50000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v25).slice (win1_9.rect t)).set ↔ _
  rw [View.set_slice_whole, Rect.mem_set_unit]
  exact Iff.rfl

/-- The blocks of rows tile the result array: row `r` lies in the block of point `r / 2000`. -/
theorem cover (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  obtain ⟨t, ht⟩ := idx_onto ⟨(i 0).val / 2000, by omega⟩
  have q0 : win1_9.index t (0 : Fin 2) = (i 0).val / 2000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 64 ≤ (i 1).val ∧ (i 1).val < win1_9.index t (1 : Fin 2) * 64 + 64; omega

/-- The region's result array after the run is the layer function of its operand arrays as the region finds them. -/
theorem arr (c : Dev nD) : (dat1 (F := Ideal) V c).arrAt 9 cfg1.N = G V c :=
  (dat1 V c).arrAt_eq_of_cover 9 (G V c) (fun t _ => flushed_eq V c t) cover

end Cert.KernelIdeal.Region1

end
-- ==== Proof.Aggregate.lean ====
/-
  The neighbourhood aggregation both programs perform on the host with the same operations: the rows of a feature
  array gathered at the (wrapped) source ends of the edges and summed into the rows named by their target ends.
  It is carried as one function of the feature array and the edge list and is never opened.
-/
import proofs.«151400_j24515673325797_1_alg».proof.Proof.Gen.ReferenceIdeal

noncomputable section

namespace Cert.Aggregate

open Cert.ReferenceIdeal Cert.ReferenceIdeal.Facts₀ Cert.ReferenceIdeal.Facts Idealize.ShloMosaic Idealize.ShloMosaic.TcCoe

variable {F : FTy → Type} [FloatOps F]

/-- The first row of the edge list. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The source ends, a negative one wrapped by the number of nodes, as a column of indices. -/
def srcIdx (ei : (⟨S2x800000, .i32⟩ : BufTy).Contents (Elt F)) : (⟨S800000x1, .i32⟩ : BufTy).Contents (Elt F) :=
  broadcastInDim S800000x1 ![0] bcast_S800000_S800000x1_0
    (select (cmpi .slt (srcRow (F := F) ei) (broadcastInDim S800000 ![] bcast_S_S800000 (constantI S_ 32 0#32)))
      (addi (srcRow (F := F) ei) (broadcastInDim S800000 ![] bcast_S_S800000 (constantI S_ 32 50000#32))) (srcRow (F := F) ei))

/-- The target ends as a column of indices. -/
def dstIdx (ei : (⟨S2x800000, .i32⟩ : BufTy).Contents (Elt F)) : (⟨S800000x1, .i32⟩ : BufTy).Contents (Elt F) :=
  broadcastInDim S800000x1 ![0] bcast_S800000_S800000x1_0
    (shapeCast _ (extractStridedSlice S1x800000 ![1, 0] ei slices_S2x800000_S1x800000_1_0) shapeCasts_S1x800000_S800000)

/-- The aggregation of 64-wide rows. -/
def agg64 (x : (⟨S50000x64, .f32⟩ : BufTy).Contents (Elt F)) (ei : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstIdx (F := F) ei)
    (Host.gather gather_S50000x64_S800000x1_S800000x64_1_0_n_n_0_1_164 x (srcIdx (F := F) ei))

/-- The aggregation of 128-wide rows. -/
def agg128 (h : (⟨S50000x128, .f32⟩ : BufTy).Contents (Elt F)) (ei : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstIdx (F := F) ei)
    (Host.gather gather_S50000x128_S800000x1_S800000x128_1_0_n_n_0_1_1128 h (srcIdx (F := F) ei))

end Cert.Aggregate

end
-- ==== Proof.KernelIdealHost.lean ====
/-
  What the two kernel regions find in their operand arrays, read back through the host operations before and
  between them: the aggregated features, the first region's result, and the arguments as launched.
-/
import proofs.«151400_j24515673325797_1_alg».proof.Proof.Gen.KernelIdeal.Frame
import proofs.«151400_j24515673325797_1_alg».proof.Proof.Aggregate
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The two programs' gather and scatter records have the same fields (their well-formedness proofs are proofs). -/
theorem gather64_eq :
    Cert.KernelIdeal.gather_S50000x64_S800000x1_S800000x64_1_0_n_n_0_1_164
      = Cert.ReferenceIdeal.gather_S50000x64_S800000x1_S800000x64_1_0_n_n_0_1_164 := rfl
theorem scatter64_eq :
    Cert.KernelIdeal.scatter_S50000x64_S800000x1_S800000x64_1_0_0_1
      = Cert.ReferenceIdeal.scatter_S50000x64_S800000x1_S800000x64_1_0_0_1 := rfl
theorem gather128_eq :
    Cert.KernelIdeal.gather_S50000x128_S800000x1_S800000x128_1_0_n_n_0_1_1128
      = Cert.ReferenceIdeal.gather_S50000x128_S800000x1_S800000x128_1_0_n_n_0_1_1128 := rfl
theorem scatter128_eq :
    Cert.KernelIdeal.scatter_S50000x128_S800000x1_S800000x128_1_0_0_1
      = Cert.ReferenceIdeal.scatter_S50000x128_S800000x1_S800000x128_1_0_0_1 := rfl

/-- A buffer that no operation of a stretch of host operations writes holds after the stretch what it held before:
    each operation writes its one result buffer, a different reference. -/
local macro "unwritten_by " ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The second row of the edge list: the target ends of the edges. -/
def dstRow (ei : (⟨Cert.ReferenceIdeal.S2x800000, .i32⟩ : BufTy).Contents (Elt Ideal)) :
    (⟨Cert.ReferenceIdeal.S800000, .i32⟩ : BufTy).Contents (Elt Ideal) :=
  shapeCast _ (extractStridedSlice Cert.ReferenceIdeal.S1x800000 ![1, 0] ei Cert.ReferenceIdeal.Facts₀.slices_S2x800000_S1x800000_1_0)
    Cert.ReferenceIdeal.Facts₀.shapeCasts_S1x800000_S800000

/-- Before region 0 the first host stretch has left the source ends of the edges in `main_v1`, -/
theorem W1_v1 (c : Dev nD) :
    W1 m ρ c (Proc.devRef .tc main_v1) = Cert.Aggregate.srcRow (F := Ideal) (m ((c : Thread nD τ).loc main_arg1)) := by
  show StableHlo.after hostOps0 (W0 m ρ c) (Proc.devRef .tc main_v1) = _
  after_results
  rfl
/-- and their target ends in `main_v3`. -/
theorem W1_v3 (c : Dev nD) :
    W1 m ρ c (Proc.devRef .tc main_v3) = dstRow (m ((c : Thread nD τ).loc main_arg1)) := by
  show StableHlo.after hostOps0 (W0 m ρ c) (Proc.devRef .tc main_v3) = _
  after_results
  rfl

/-- Region 0 finds in its first operand the aggregation of the input features. -/
theorem V1_v13 (c : Dev nD) :
    V1 m ρ c main_v13 = Cert.Aggregate.agg64 (F := Ideal) (m ((c : Thread nD τ).loc main_arg0)) (m ((c : Thread nD τ).loc main_arg1)) := by
  show StableHlo.after hostOps0 (W0 m ρ c) (Proc.devRef .tc main_v13) = _
  after_results
  rw [gather64_eq, scatter64_eq]
  rfl
theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  unwritten_by hostOps0
theorem V1_arg2 (c : Dev nD) : V1 m ρ c main_arg2 = m ((c : Thread nD τ).loc main_arg2) := by
  show StableHlo.after hostOps0 (W0 m ρ c) (Proc.devRef .tc main_arg2) = W0 m ρ c (Proc.devRef .tc main_arg2)
  unwritten_by hostOps0
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  unwritten_by hostOps0
theorem V1_arg4 (c : Dev nD) : V1 m ρ c main_arg4 = m ((c : Thread nD τ).loc main_arg4) := by
  show StableHlo.after hostOps0 (W0 m ρ c) (Proc.devRef .tc main_arg4) = W0 m ρ c (Proc.devRef .tc main_arg4)
  unwritten_by hostOps0
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  unwritten_by hostOps0
theorem V1_arg6 (c : Dev nD) : V1 m ρ c main_arg6 = m ((c : Thread nD τ).loc main_arg6) := by
  show StableHlo.after hostOps0 (W0 m ρ c) (Proc.devRef .tc main_arg6) = W0 m ρ c (Proc.devRef .tc main_arg6)
  unwritten_by hostOps0
theorem V1_arg7 (c : Dev nD) : V1 m ρ c main_arg7 = m ((c : Thread nD τ).loc main_arg7) := by
  show StableHlo.after hostOps0 (W0 m ρ c) (Proc.devRef .tc main_arg7) = W0 m ρ c (Proc.devRef .tc main_arg7)
  unwritten_by hostOps0
theorem V1_arg8 (c : Dev nD) : V1 m ρ c main_arg8 = m ((c : Thread nD τ).loc main_arg8) := by
  show StableHlo.after hostOps0 (W0 m ρ c) (Proc.devRef .tc main_arg8) = W0 m ρ c (Proc.devRef .tc main_arg8)
  unwritten_by hostOps0

/-- Region 1 finds in its first operand the aggregation of what region 0 left in its result array. -/
theorem V3_v24 (c : Dev nD) :
    V3 m ρ c main_v24 = Cert.Aggregate.agg128 (F := Ideal) (V2 m ρ c main_v14) (m ((c : Thread nD τ).loc main_arg1)) := by
  show StableHlo.after hostOps1 (W2 m ρ c) (Proc.devRef .tc main_v24) = _
  after_results
  rw [W2_of_ne m ρ c main_v1 (by decide), W2_of_ne m ρ c main_v3 (by decide), W1_v1, W1_v3, gather128_eq, scatter128_eq]
  rfl
/-- No operation between the regions writes region 0's result array. -/
theorem V3_v14 (c : Dev nD) : V3 m ρ c main_v14 = V2 m ρ c main_v14 := by
  show StableHlo.after hostOps1 (W2 m ρ c) (Proc.devRef .tc main_v14) = W2 m ρ c (Proc.devRef .tc main_v14)
  unwritten_by hostOps1
theorem V3_arg9 (c : Dev nD) : V3 m ρ c main_arg9 = m ((c : Thread nD τ).loc main_arg9) :=
  calc V3 m ρ c main_arg9
    _ = W2 m ρ c (Proc.devRef .tc main_arg9) := by
          show StableHlo.after hostOps1 (W2 m ρ c) (Proc.devRef .tc main_arg9) = _
          unwritten_by hostOps1
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          unwritten_by hostOps0
    _ = m ((c : Thread nD τ).loc main_arg9) := rfl
theorem V3_arg10 (c : Dev nD) : V3 m ρ c main_arg10 = m ((c : Thread nD τ).loc main_arg10) :=
  calc V3 m ρ c main_arg10
    _ = W2 m ρ c (Proc.devRef .tc main_arg10) := by
          show StableHlo.after hostOps1 (W2 m ρ c) (Proc.devRef .tc main_arg10) = _
          unwritten_by hostOps1
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          unwritten_by hostOps0
    _ = m ((c : Thread nD τ).loc main_arg10) := rfl
theorem V3_arg11 (c : Dev nD) : V3 m ρ c main_arg11 = m ((c : Thread nD τ).loc main_arg11) :=
  calc V3 m ρ c main_arg11
    _ = W2 m ρ c (Proc.devRef .tc main_arg11) := by
          show StableHlo.after hostOps1 (W2 m ρ c) (Proc.devRef .tc main_arg11) = _
          unwritten_by hostOps1
    _ = W1 m ρ c (Proc.devRef .tc main_arg11) := W2_of_ne m ρ c main_arg11 (by decide)
    _ = W0 m ρ c (Proc.devRef .tc main_arg11) := by
          show StableHlo.after hostOps0 (W0 m ρ c) (Proc.devRef .tc main_arg11) = _
          unwritten_by hostOps0
    _ = m ((c : Thread nD τ).loc main_arg11) := rfl
theorem V3_arg12 (c : Dev nD) : V3 m ρ c main_arg12 = m ((c : Thread nD τ).loc main_arg12) :=
  calc V3 m ρ c main_arg12
    _ = W2 m ρ c (Proc.devRef .tc main_arg12) := by
          show StableHlo.after hostOps1 (W2 m ρ c) (Proc.devRef .tc main_arg12) = _
          unwritten_by hostOps1
    _ = W1 m ρ c (Proc.devRef .tc main_arg12) := W2_of_ne m ρ c main_arg12 (by decide)
    _ = W0 m ρ c (Proc.devRef .tc main_arg12) := by
          show StableHlo.after hostOps0 (W0 m ρ c) (Proc.devRef .tc main_arg12) = _
          unwritten_by hostOps0
    _ = m ((c : Thread nD τ).loc main_arg12) := rfl
theorem V3_arg13 (c : Dev nD) : V3 m ρ c main_arg13 = m ((c : Thread nD τ).loc main_arg13) :=
  calc V3 m ρ c main_arg13
    _ = W2 m ρ c (Proc.devRef .tc main_arg13) := by
          show StableHlo.after hostOps1 (W2 m ρ c) (Proc.devRef .tc main_arg13) = _
          unwritten_by hostOps1
    _ = W1 m ρ c (Proc.devRef .tc main_arg13) := W2_of_ne m ρ c main_arg13 (by decide)
    _ = W0 m ρ c (Proc.devRef .tc main_arg13) := by
          show StableHlo.after hostOps0 (W0 m ρ c) (Proc.devRef .tc main_arg13) = _
          unwritten_by hostOps0
    _ = m ((c : Thread nD τ).loc main_arg13) := rfl
theorem V3_arg14 (c : Dev nD) : V3 m ρ c main_arg14 = m ((c : Thread nD τ).loc main_arg14) :=
  calc V3 m ρ c main_arg14
    _ = W2 m ρ c (Proc.devRef .tc main_arg14) := by
          show StableHlo.after hostOps1 (W2 m ρ c) (Proc.devRef .tc main_arg14) = _
          unwritten_by hostOps1
    _ = W1 m ρ c (Proc.devRef .tc main_arg14) := W2_of_ne m ρ c main_arg14 (by decide)
    _ = W0 m ρ c (Proc.devRef .tc main_arg14) := by
          show StableHlo.after hostOps0 (W0 m ρ c) (Proc.devRef .tc main_arg14) = _
          unwritten_by hostOps0
    _ = m ((c : Thread nD τ).loc main_arg14) := rfl
theorem V3_arg15 (c : Dev nD) : V3 m ρ c main_arg15 = m ((c : Thread nD τ).loc main_arg15) :=
  calc V3 m ρ c main_arg15
    _ = W2 m ρ c (Proc.devRef .tc main_arg15) := by
          show StableHlo.after hostOps1 (W2 m ρ c) (Proc.devRef .tc main_arg15) = _
          unwritten_by hostOps1
    _ = W1 m ρ c (Proc.devRef .tc main_arg15) := W2_of_ne m ρ c main_arg15 (by decide)
    _ = W0 m ρ c (Proc.devRef .tc main_arg15) := by
          show StableHlo.after hostOps0 (W0 m ρ c) (Proc.devRef .tc main_arg15) = _
          unwritten_by hostOps0
    _ = m ((c : Thread nD τ).loc main_arg15) := rfl

end Cert.KernelIdeal.HostReads

end
-- ==== Proof.Encoder.lean ====
/-
  The whole encoder as one function of the sixteen arguments: the second layer (no rectifier) of the aggregated
  first layer (rectified) and of the first layer itself.
-/
import proofs.«151400_j24515673325797_1_alg».proof.Proof.Spec
import proofs.«151400_j24515673325797_1_alg».proof.Proof.Aggregate

noncomputable section

namespace Cert.Encoder

open Cert.ReferenceIdeal Idealize.ShloMosaic Idealize.ShloMosaic.TcCoe

/-- The first layer's result. -/
def hidden (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) :
    (⟨S50000x128, .f32⟩ : BufTy).Contents (Elt Ideal) :=
  Cert.Sage.layer true (Cert.Aggregate.agg64 (F := Ideal) x0 x1) x0 x2 x3 x4 x5 x6 x7 x8

/-- The encoder's result. -/
def out (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal))
    (x9 : (⟨S128x64, .f32⟩ : BufTy).Contents (Elt Ideal)) (x10 : (⟨S64, .f32⟩ : BufTy).Contents (Elt Ideal)) (x11 : (⟨S128x64, .f32⟩ : BufTy).Contents (Elt Ideal)) (x12 x13 x14 x15 : (⟨S64, .f32⟩ : BufTy).Contents (Elt Ideal)) :
    (⟨S50000x64, .f32⟩ : BufTy).Contents (Elt Ideal) :=
  Cert.Sage.layer false (Cert.Aggregate.agg128 (F := Ideal) (hidden x0 x1 x2 x3 x4 x5 x6 x7 x8) x1)
    (hidden x0 x1 x2 x3 x4 x5 x6 x7 x8) x9 x10 x11 x12 x13 x14 x15

end Cert.Encoder

end
-- ==== Proof.KernelIdealValue.lean ====
/-
  The idealized kernel program's result: the run leaves in the result array the second region's write-backs, which
  are the layer function of what that region finds — the aggregation of the first region's result, that result, and
  six arguments —, and the first region's result is the layer function of the aggregated input and eight arguments.
-/
import proofs.«151400_j24515673325797_1_alg».proof.Proof.Region0
import proofs.«151400_j24515673325797_1_alg».proof.Proof.Region1
import proofs.«151400_j24515673325797_1_alg».proof.Proof.KernelIdealHost
import proofs.«151400_j24515673325797_1_alg».proof.Proof.KernelIdealRun
import proofs.«151400_j24515673325797_1_alg».proof.Proof.Encoder

set_option maxRecDepth 16384

noncomputable section

namespace Cert.KernelIdeal.Value

open Cert.KernelIdeal Cert.KernelIdeal.Gen Cert.KernelIdeal.HostReads
open Idealize.ShloMosaic Idealize.ShloMosaic.TcCoe Idealize.SL.Sem

variable (m : (ℓ : Loc nD τ sig) → Buf (Elt Ideal) ℓ) (ρ : Dev nD → PrngReg)

/-- What the first region leaves in its result array. -/
theorem hidden_eq (c : Dev nD) :
    V2 m ρ c main_v14 = Cert.Encoder.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W2_arr m ρ c 9).trans (Cert.KernelIdeal.Region0.arr (V1 m ρ) c)
  refine h.trans ?_
  show Cert.Sage.layer true (V1 m ρ c main_v13) (V1 m ρ c main_arg0) (V1 m ρ c main_arg2) (V1 m ρ c main_arg3)
    (V1 m ρ c main_arg4) (V1 m ρ c main_arg5) (V1 m ρ c main_arg6) (V1 m ρ c main_arg7) (V1 m ρ c main_arg8) = _
  rw [V1_v13, V1_arg0, V1_arg2, V1_arg3, V1_arg4, V1_arg5, V1_arg6, V1_arg7, V1_arg8]
  rfl

/-- What the run leaves in the result array. -/
theorem result_eq (c : Dev nD) :
    W4 m ρ c (Proc.devRef .tc main_v25) = Cert.Encoder.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := (W4_arr m ρ c 9).trans (Cert.KernelIdeal.Region1.arr (V3 m ρ) c)
  refine h.trans ?_
  show Cert.Sage.layer false (V3 m ρ c main_v24) (V3 m ρ c main_v14) (V3 m ρ c main_arg9) (V3 m ρ c main_arg10)
    (V3 m ρ c main_arg11) (V3 m ρ c main_arg12) (V3 m ρ c main_arg13) (V3 m ρ c main_arg14) (V3 m ρ c main_arg15) = _
  rw [V3_v24, V3_v14, V3_arg9, V3_arg10, V3_arg11, V3_arg12, V3_arg13, V3_arg14, V3_arg15, hidden_eq]
  rfl

/-- Every weakly fair execution of the idealized kernel program ends with the encoder's function of the arguments
    in the result array and the arguments unchanged. -/
theorem run : θ_run defs (onTc (τ := τ) (main (F := Ideal))) ⟨m, fun _ => 0, ρ⟩ (fun r => ∀ c : Dev nD,
      r.2.mem ((c.tc : Thread nD τ).loc main_v25) = Cert.Encoder.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩) (Cert.KernelIdeal.ValueRun.run (F := Ideal) m ρ)

end Cert.KernelIdeal.Value

end
-- ==== Proof.RefLayers.lean ====
/-
  The reference program, read layer by layer: its first forty operations are one layer (with the rectifier) of the
  aggregated input, its last thirty-six one layer (without) of the aggregated first layer.
-/
import proofs.«151400_j24515673325797_1_alg».proof.Proof.Gen.ReferenceIdeal.Read
import proofs.«151400_j24515673325797_1_alg».proof.Proof.Spec
import proofs.«151400_j24515673325797_1_alg».proof.Proof.Aggregate

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

/-! ## The two scalar shapes the reference uses, against the specification's -/

/-- The clamped row norm as the reference computes it: the sum starts from the zero word. -/
theorem rowNorm_ref {n : ℕ} (o : Fin n → EReal) :
    FloatOps.maximumf (F := Ideal) (φ := .f32)
        (FloatOps.hostUnary .sqrt (FloatOps.ofBits (F := Ideal) .f32 0x00000000#32 + ∑ k, o k * o k))
        (FloatOps.ofBits (F := Ideal) .f32 0x2B8CBCCC#32) = Cert.Sage.rowNorm o := by
  simp only [Ideal.maximumf_def, Ideal.hostUnary_sqrt_def]
  rw [Ideal.ofBits_def, Ideal.ofBits_zero_f32, zero_add, Ideal.ofBits_def]
  rfl

/-- The batch norm of one entry in the reference's order of factors. -/
theorem bn_ref (v g be rm rv : EReal) :
    FloatOps.addf (F := Ideal) (φ := .f32) (FloatOps.mulf (F := Ideal) (φ := .f32) (FloatOps.mulf (F := Ideal) (φ := .f32) g (FloatOps.subf (F := Ideal) (φ := .f32) v rm))
        (FloatOps.hostUnary (F := Ideal) (φ := .f32) .rsqrt (FloatOps.addf (F := Ideal) (φ := .f32) rv (FloatOps.ofBits (F := Ideal) .f32 0x3727C5AC#32)))) be
      = Cert.Sage.bnAt v g be rm rv := by
  simp only [Ideal.addf_def, Ideal.mulf_def, Ideal.subf_def, Ideal.hostUnary_rsqrt_def]
  rw [Ideal.ofBits_def]
  exact Cert.Sage.bn_comm _ _ _ _ _

/-! ## The first layer (operations 13 to 40), entry by entry -/

/-- Operations 0 to 13 are the shared aggregation of the 64-wide input rows along the edge list. -/
theorem v13_eq_agg64 (x0 : (⟨S50000x64, .f32⟩ : BufTy).Contents (Elt Ideal)) (x1 : (⟨S2x800000, .i32⟩ : BufTy).Contents (Elt Ideal)) :
    val_main_v13 (F := Ideal) x0 x1 = Cert.Aggregate.agg64 (F := Ideal) x0 x1 := rfl

/-- At entry `(r, j)` the two products read row `r` of their left operand and column `j` of their right one, and the
    broadcast bias reads its entry `j`. -/
theorem lidx14_ix2 (r : Fin 50000) (j : Fin 128) (k : Fin 64) : lidx_main_v14 (ix2 r j) k = ix2 r k :=
  funext fun a => by match a with | ⟨0, _⟩ => rfl | ⟨1, _⟩ => rfl
theorem ridx14_ix2 (r : Fin 50000) (j : Fin 128) (k : Fin 64) : ridx_main_v14 (ix2 r j) k = ix2 k j :=
  funext fun a => by match a with | ⟨0, _⟩ => rfl | ⟨1, _⟩ => rfl
theorem lidx18_ix2 (r : Fin 50000) (j : Fin 128) (k : Fin 64) : lidx_main_v18 (ix2 r j) k = ix2 r k :=
  funext fun a => by match a with | ⟨0, _⟩ => rfl | ⟨1, _⟩ => rfl
theorem ridx18_ix2 (r : Fin 50000) (j : Fin 128) (k : Fin 64) : ridx_main_v18 (ix2 r j) k = ix2 k j :=
  funext fun a => by match a with | ⟨0, _⟩ => rfl | ⟨1, _⟩ => rfl
theorem vec16_ix2 (r : Fin 50000) (j : Fin 128) : idx_main_v15 (idx_main_v16 (ix2 r j)) = ix1 j :=
  funext fun a => by match a with | ⟨0, _⟩ => rfl

/-- Operation 19 at `(r, j)`: both products and the bias; the reference adds the bias before the second product. -/
theorem v19_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (r : Fin 50000) (j : Fin 128) :
    val_main_v19 (F := Ideal) x0 x1 x2 x3 x4 (ix2 r j)
      = Cert.Sage.lin (Cert.Aggregate.agg64 (F := Ideal) x0 x1) x0 x2 x3 x4 r j := by
  rw [val_main_v19_apply, val_main_v17_apply, val_main_v14_apply, val_main_v18_apply, val_main_v16_apply,
    val_main_v15_apply, v13_eq_agg64]
  simp only [Ideal.addf_def, lidx14_ix2, ridx14_ix2, lidx18_ix2, ridx18_ix2, vec16_ix2]
  unfold Cert.Sage.lin
  exact Cert.Sage.lin_comm _ _ _

/-- The row sum behind entry `(r, j)` of the broadcast norm runs over row `r`. -/
theorem normIdx1_ix2 (r : Fin 50000) (j : Fin 128) (k : Fin 128) :
    idx_main_call0_v1 (idx_main_call0_v2 (idx_main_v23 (ix2 r j))) k = ix2 r k :=
  funext fun a => by match a with | ⟨0, _⟩ => rfl | ⟨1, _⟩ => rfl

/-- The squares the norm sums are those of the linear stage's row. -/
theorem sq1_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (r : Fin 50000) (j : Fin 128) (k : Fin 128) :
    val_main_call0_v0 (F := Ideal) x0 x1 x2 x3 x4 (idx_main_call0_v1 (idx_main_call0_v2 (idx_main_v23 (ix2 r j))) k)
      = Cert.Sage.lin (Cert.Aggregate.agg64 (F := Ideal) x0 x1) x0 x2 x3 x4 r k
          * Cert.Sage.lin (Cert.Aggregate.agg64 (F := Ideal) x0 x1) x0 x2 x3 x4 r k := by
  rw [normIdx1_ix2, val_main_call0_v0_apply, v19_ix2, Ideal.mulf_def]

/-- Operation 23 at `(r, j)`: the clamped Euclidean norm of row `r` of the linear stage, the same in every column. -/
theorem v23_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (r : Fin 50000) (j : Fin 128) :
    val_main_v23 (F := Ideal) x0 x1 x2 x3 x4 (ix2 r j)
      = Cert.Sage.rowNorm (Cert.Sage.lin (Cert.Aggregate.agg64 (F := Ideal) x0 x1) x0 x2 x3 x4 r) := by
  rw [val_main_v23_apply, val_main_v22_apply, val_main_v20_apply, val_main_call0_v2_apply, val_main_call0_v1_apply,
    val_main_v21_apply, val_main_cst_1_apply, val_main_call0_cst_apply]
  simp only [sq1_ix2]
  exact rowNorm_ref _

/-- The four batch-norm vectors, broadcast along the rows, read their entry `j` at `(r, j)`. -/
theorem vec26_ix2 (r : Fin 50000) (j : Fin 128) : idx_main_v25 (idx_main_v26 (ix2 r j)) = ix1 j :=
  funext fun a => by match a with | ⟨0, _⟩ => rfl
theorem vec29_ix2 (r : Fin 50000) (j : Fin 128) : idx_main_v28 (idx_main_v29 (ix2 r j)) = ix1 j :=
  funext fun a => by match a with | ⟨0, _⟩ => rfl
theorem vec35_ix2 (r : Fin 50000) (j : Fin 128) : idx_main_v34 (idx_main_v35 (ix2 r j)) = ix1 j :=
  funext fun a => by match a with | ⟨0, _⟩ => rfl
theorem vec38_ix2 (r : Fin 50000) (j : Fin 128) : idx_main_v37 (idx_main_v38 (ix2 r j)) = ix1 j :=
  funext fun a => by match a with | ⟨0, _⟩ => rfl

/-- Operation 40 at `(r, j)`: the normalised entry through the batch norm and the rectifier. -/
theorem v40_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) (r : Fin 50000) (j : Fin 128) :
    val_main_v40 (F := Ideal) x0 x1 x2 x3 x4 x5 x6 x7 x8 (ix2 r j)
      = Cert.Sage.layerAt true (Cert.Aggregate.agg64 (F := Ideal) x0 x1) x0 x2 x3 x4 x5 x6 x7 x8 r j := by
  rw [val_main_v40_apply, val_main_v39_apply, val_main_v36_apply, val_main_v30_apply, val_main_v27_apply,
    val_main_v24_apply, v19_ix2, v23_ix2, val_main_v26_apply, val_main_v25_apply, val_main_v29_apply, val_main_v28_apply,
    val_main_v35_apply, val_main_v34_apply, val_main_v33_apply, val_main_v32_apply, val_main_v31_apply,
    val_main_cst_2_apply, val_main_v38_apply, val_main_v37_apply, val_main_call1_v0_apply, val_main_call1_cst_apply,
    vec26_ix2, vec29_ix2, vec35_ix2, vec38_ix2]
  rw [bn_ref, Ideal.hostDivf_def, Ideal.maximumf_def, Ideal.ofBits_def]
  unfold Cert.Sage.layerAt
  rw [if_pos rfl]

/-- The first layer: the stage of the rectified batch norm is the layer function of the aggregated input. -/
theorem layer1_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) :
    val_main_v40 (F := Ideal) x0 x1 x2 x3 x4 x5 x6 x7 x8
      = Cert.Sage.layer true (Cert.Aggregate.agg64 (F := Ideal) x0 x1) x0 x2 x3 x4 x5 x6 x7 x8 := by
  funext i
  obtain ⟨r, j, rfl⟩ : ∃ (r : Fin 50000) (j : Fin 128), i = ix2 r j := ⟨i 0, i 1, eq_ix2 i⟩
  rw [Cert.Sage.layer_ix2, v40_ix2]

/-! ## The second layer (operations 50 to 76), entry by entry, over the first layer's array -/

/-- Operations 41 to 50 are the shared aggregation of the 128-wide rows of the first layer along the same edge list. -/
theorem v50_eq_agg128 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) :
    val_main_v50 (F := Ideal) x0 x1 x2 x3 x4 x5 x6 x7 x8 = Cert.Aggregate.agg128 (F := Ideal) (val_main_v40 (F := Ideal) x0 x1 x2 x3 x4 x5 x6 x7 x8) x1 := rfl

/-- The second layer's products and bias read the same way, now contracting over the 128 columns of the first layer. -/
theorem lidx51_ix2 (r : Fin 50000) (j : Fin 64) (k : Fin 128) : lidx_main_v51 (ix2 r j) k = ix2 r k :=
  funext fun a => by match a with | ⟨0, _⟩ => rfl | ⟨1, _⟩ => rfl
theorem ridx51_ix2 (r : Fin 50000) (j : Fin 64) (k : Fin 128) : ridx_main_v51 (ix2 r j) k = ix2 k j :=
  funext fun a => by match a with | ⟨0, _⟩ => rfl | ⟨1, _⟩ => rfl
theorem lidx55_ix2 (r : Fin 50000) (j : Fin 64) (k : Fin 128) : lidx_main_v55 (ix2 r j) k = ix2 r k :=
  funext fun a => by match a with | ⟨0, _⟩ => rfl | ⟨1, _⟩ => rfl
theorem ridx55_ix2 (r : Fin 50000) (j : Fin 64) (k : Fin 128) : ridx_main_v55 (ix2 r j) k = ix2 k j :=
  funext fun a => by match a with | ⟨0, _⟩ => rfl | ⟨1, _⟩ => rfl
theorem vec53_ix2 (r : Fin 50000) (j : Fin 64) : idx_main_v52 (idx_main_v53 (ix2 r j)) = ix1 j :=
  funext fun a => by match a with | ⟨0, _⟩ => rfl

/-- Operation 56 at `(r, j)`: the linear stage of the second layer over the first layer's array and its aggregation. -/
theorem v56_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (r : Fin 50000) (j : Fin 64) :
    val_main_v56 (F := Ideal) x0 x1 x2 x3 x4 x5 x6 x7 x8 x9 x10 x11 (ix2 r j)
      = Cert.Sage.lin (Cert.Aggregate.agg128 (F := Ideal) (Cert.Sage.layer true (Cert.Aggregate.agg64 (F := Ideal) x0 x1) x0 x2 x3 x4 x5 x6 x7 x8) x1) (Cert.Sage.layer true (Cert.Aggregate.agg64 (F := Ideal) x0 x1) x0 x2 x3 x4 x5 x6 x7 x8) x9 x10 x11 r j := by
  rw [val_main_v56_apply, val_main_v54_apply, val_main_v51_apply, val_main_v55_apply, val_main_v53_apply,
    val_main_v52_apply, v50_eq_agg128, layer1_eq]
  simp only [Ideal.addf_def, lidx51_ix2, ridx51_ix2, lidx55_ix2, ridx55_ix2, vec53_ix2]
  exact Cert.Sage.lin_comm _ _ _

/-- The row sum behind entry `(r, j)` of the second broadcast norm runs over row `r`. -/
theorem normIdx2_ix2 (r : Fin 50000) (j : Fin 64) (k : Fin 64) :
    idx_main_call2_v1 (idx_main_call2_v2 (idx_main_v60 (ix2 r j))) k = ix2 r k :=
  funext fun a => by match a with | ⟨0, _⟩ => rfl | ⟨1, _⟩ => rfl

/-- The squares the second norm sums are those of the second linear stage's row. -/
theorem sq2_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (r : Fin 50000) (j : Fin 64) (k : Fin 64) :
    val_main_call2_v0 (F := Ideal) x0 x1 x2 x3 x4 x5 x6 x7 x8 x9 x10 x11 (idx_main_call2_v1 (idx_main_call2_v2 (idx_main_v60 (ix2 r j))) k)
      = Cert.Sage.lin (Cert.Aggregate.agg128 (F := Ideal) (Cert.Sage.layer true (Cert.Aggregate.agg64 (F := Ideal) x0 x1) x0 x2 x3 x4 x5 x6 x7 x8) x1) (Cert.Sage.layer true (Cert.Aggregate.agg64 (F := Ideal) x0 x1) x0 x2 x3 x4 x5 x6 x7 x8) x9 x10 x11 r k
          * Cert.Sage.lin (Cert.Aggregate.agg128 (F := Ideal) (Cert.Sage.layer true (Cert.Aggregate.agg64 (F := Ideal) x0 x1) x0 x2 x3 x4 x5 x6 x7 x8) x1) (Cert.Sage.layer true (Cert.Aggregate.agg64 (F := Ideal) x0 x1) x0 x2 x3 x4 x5 x6 x7 x8) x9 x10 x11 r k := by
  rw [normIdx2_ix2, val_main_call2_v0_apply, v56_ix2, Ideal.mulf_def]

/-- Operation 60 at `(r, j)`: the clamped Euclidean norm of row `r` of the second linear stage. -/
theorem v60_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (r : Fin 50000) (j : Fin 64) :
    val_main_v60 (F := Ideal) x0 x1 x2 x3 x4 x5 x6 x7 x8 x9 x10 x11 (ix2 r j)
      = Cert.Sage.rowNorm (Cert.Sage.lin (Cert.Aggregate.agg128 (F := Ideal) (Cert.Sage.layer true (Cert.Aggregate.agg64 (F := Ideal) x0 x1) x0 x2 x3 x4 x5 x6 x7 x8) x1) (Cert.Sage.layer true (Cert.Aggregate.agg64 (F := Ideal) x0 x1) x0 x2 x3 x4 x5 x6 x7 x8) x9 x10 x11 r) := by
  rw [val_main_v60_apply, val_main_v59_apply, val_main_v57_apply, val_main_call2_v2_apply, val_main_call2_v1_apply,
    val_main_v58_apply, val_main_cst_6_apply, val_main_call2_cst_apply]
  simp only [sq2_ix2]
  exact rowNorm_ref _

/-- The second layer's four batch-norm vectors read their entry `j` at `(r, j)`. -/
theorem vec63_ix2 (r : Fin 50000) (j : Fin 64) : idx_main_v62 (idx_main_v63 (ix2 r j)) = ix1 j :=
  funext fun a => by match a with | ⟨0, _⟩ => rfl
theorem vec66_ix2 (r : Fin 50000) (j : Fin 64) : idx_main_v65 (idx_main_v66 (ix2 r j)) = ix1 j :=
  funext fun a => by match a with | ⟨0, _⟩ => rfl
theorem vec72_ix2 (r : Fin 50000) (j : Fin 64) : idx_main_v71 (idx_main_v72 (ix2 r j)) = ix1 j :=
  funext fun a => by match a with | ⟨0, _⟩ => rfl
theorem vec75_ix2 (r : Fin 50000) (j : Fin 64) : idx_main_v74 (idx_main_v75 (ix2 r j)) = ix1 j :=
  funext fun a => by match a with | ⟨0, _⟩ => rfl

/-- Operation 76 at `(r, j)`: the normalised entry through the second batch norm, with no rectifier. -/
theorem v76_ix2 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (x12 x13 x14 x15 : (⟨S64, .f32⟩ : BufTy).Contents (Elt Ideal)) (r : Fin 50000) (j : Fin 64) :
    val_main_v76 (F := Ideal) x0 x1 x2 x3 x4 x5 x6 x7 x8 x9 x10 x11 x12 x13 x14 x15 (ix2 r j)
      = Cert.Sage.layerAt false (Cert.Aggregate.agg128 (F := Ideal) (Cert.Sage.layer true (Cert.Aggregate.agg64 (F := Ideal) x0 x1) x0 x2 x3 x4 x5 x6 x7 x8) x1) (Cert.Sage.layer true (Cert.Aggregate.agg64 (F := Ideal) x0 x1) x0 x2 x3 x4 x5 x6 x7 x8) x9 x10 x11 x12 x13 x14 x15 r j := by
  rw [val_main_v76_apply, val_main_v73_apply, val_main_v67_apply, val_main_v64_apply, val_main_v61_apply,
    v56_ix2, v60_ix2, val_main_v63_apply, val_main_v62_apply, val_main_v66_apply, val_main_v65_apply,
    val_main_v72_apply, val_main_v71_apply, val_main_v70_apply, val_main_v69_apply, val_main_v68_apply,
    val_main_cst_7_apply, val_main_v75_apply, val_main_v74_apply, vec63_ix2, vec66_ix2, vec72_ix2, vec75_ix2,
    bn_ref, Ideal.hostDivf_def]
  unfold Cert.Sage.layerAt
  rw [if_neg Bool.false_ne_true]

/-- The whole reference: the second layer of the aggregated first layer. -/
theorem ref_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 x7 x8 : (⟨S128, .f32⟩ : BufTy).Contents (Elt Ideal))
    (x9 : (⟨S128x64, .f32⟩ : BufTy).Contents (Elt Ideal)) (x10 : (⟨S64, .f32⟩ : BufTy).Contents (Elt Ideal)) (x11 : (⟨S128x64, .f32⟩ : BufTy).Contents (Elt Ideal)) (x12 x13 x14 x15 : (⟨S64, .f32⟩ : BufTy).Contents (Elt Ideal)) :
    val_main_v76 (F := Ideal) x0 x1 x2 x3 x4 x5 x6 x7 x8 x9 x10 x11 x12 x13 x14 x15
      = Cert.Sage.layer false
          (Cert.Aggregate.agg128 (F := Ideal) (Cert.Sage.layer true (Cert.Aggregate.agg64 (F := Ideal) x0 x1) x0 x2 x3 x4 x5 x6 x7 x8) x1)
          (Cert.Sage.layer true (Cert.Aggregate.agg64 (F := Ideal) x0 x1) x0 x2 x3 x4 x5 x6 x7 x8)
          x9 x10 x11 x12 x13 x14 x15 := by
  funext i
  obtain ⟨r, j, rfl⟩ : ∃ (r : Fin 50000) (j : Fin 64), i = ix2 r j := ⟨i 0, i 1, eq_ix2 i⟩
  rw [Cert.Sage.layer_ix2, v76_ix2]

end Cert.ReferenceIdeal.Layers

end
-- ==== Proof.lean ====
/-
  A two-layer GraphSAGE encoder: each layer sums the features of a node's in-neighbours (a gather and a
  scatter-add on the host, the same operations in both programs), applies two linear maps and a bias, divides every
  row by its clamped Euclidean norm, and applies an evaluation-mode batch norm (and, in the first layer, a rectifier).
  The kernel program runs the dense part of each layer as one Pallas region over blocks of 2000 rows; the reference
  is plain jnp.  On the extended reals both compute `Cert.Encoder.out` of the sixteen arguments: the kernel adds
  the bias after the second product and multiplies by the scale before the weight, the reference the other way
  round, and addition and multiplication of extended reals are commutative and associative — no finiteness is used.
  The kernel side is read off its frame run (two regions, each covered by its 25 blocks of rows); the reference side
  off its run, operation by operation.  The ideal pass rewrote nothing, so `preserves` is trivial.
-/
import proofs.«151400_j24515673325797_1_alg».proof.Defs
import proofs.«151400_j24515673325797_1_alg».proof.Proof.Gen.Kernel
import proofs.«151400_j24515673325797_1_alg».proof.Proof.Gen.Kernel.Skeleton
import proofs.«151400_j24515673325797_1_alg».proof.Proof.Gen.Kernel.Launch
import proofs.«151400_j24515673325797_1_alg».proof.Proof.Gen.Kernel.Points
import proofs.«151400_j24515673325797_1_alg».proof.Proof.Gen.Kernel.Frame
import proofs.«151400_j24515673325797_1_alg».proof.Proof.Gen.KernelIdeal
import proofs.«151400_j24515673325797_1_alg».proof.Proof.Gen.KernelIdeal.Skeleton
import proofs.«151400_j24515673325797_1_alg».proof.Proof.Gen.KernelIdeal.Launch
import proofs.«151400_j24515673325797_1_alg».proof.Proof.Gen.KernelIdeal.Points
import proofs.«151400_j24515673325797_1_alg».proof.Proof.Gen.KernelIdeal.Frame
import proofs.«151400_j24515673325797_1_alg».proof.Proof.Gen.ReferenceIdeal
import proofs.«151400_j24515673325797_1_alg».proof.Proof.Gen.ReferenceIdeal.Run
import proofs.«151400_j24515673325797_1_alg».proof.Proof.Gen.ReferenceIdeal.Read
import proofs.«151400_j24515673325797_1_alg».proof.Proof.Gen.Pre_finite_inputs
import proofs.«151400_j24515673325797_1_alg».proof.Proof.KernelIdealValue
import proofs.«151400_j24515673325797_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the encoder's function of the (agreeing) arguments in their result arrays. -/
theorem algebraic : Cert.algebraic_KernelIdeal_ReferenceIdeal := by
  intro m ρ m' ρ' _ hagree
  refine ⟨fun c => Cert.Encoder.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v76_eq, Cert.ReferenceIdeal.Layers.ref_eq, e0, e1, e2, e3, e4, e5, e6, e7, e8, e9, e10, e11, e12, e13, e14, e15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
